-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1250000x64 : Shape := ⟨2, ![1250000, 64]⟩
abbrev S2x1250000 : Shape := ⟨2, ![2, 1250000]⟩
abbrev S_ : Shape := ⟨0, ![]⟩

class Facts : Prop where
  bcast_S_S1250000x64 : S_.BroadcastsInDim S1250000x64 (![] : Fin 0 → Fin S1250000x64.rank)
  reducesTo_S1250000x64_S_d0_1 : S1250000x64.ReducesTo [0, 1] S_
  h_S_ : 0 < S_.numel

variable [Facts]

def fn {F : FTy → Type} [FloatOps F] (main_arg0 : FVec F S1250000x64 .f32) (main_arg1 : IVec S2x1250000 32) : IVec S_ 1 :=
  let main_v0 : FVec F S1250000x64 .f32 := Host.absf main_arg0
  let main_cst : FVec F S_ .f32 := constant S_ .f32 0x7F800000#32
  let main_v1 : FVec F S1250000x64 .f32 := broadcastInDim S1250000x64 ![] bcast_S_S1250000x64 main_cst
  let main_v2 : IVec S1250000x64 1 := cmpf .olt main_v0 main_v1
  let main_c : IVec S_ 1 := constantI S_ 1 1#1
  let main_v3 : IVec S_ 1 := (fun x v => Host.reduce IntOp.andi x v reducesTo_S1250000x64_S_d0_1 h_S_) main_v2 main_c
  main_v3
-- ==== Kernel.lean ====
abbrev S1250000x64 : Shape := ⟨2, ![1250000, 64]⟩
abbrev S2x1250000 : Shape := ⟨2, ![2, 1250000]⟩
abbrev S1x1250000 : Shape := ⟨2, ![1, 1250000]⟩
abbrev S1250000 : Shape := ⟨1, ![1250000]⟩
abbrev S_ : Shape := ⟨0, ![]⟩
abbrev S1310720 : Shape := ⟨1, ![1310720]⟩
abbrev S1x1310720 : Shape := ⟨2, ![1, 1310720]⟩
abbrev S1310720x64 : Shape := ⟨2, ![1310720, 64]⟩
abbrev S50000x64 : Shape := ⟨2, ![50000, 64]⟩
abbrev S1x65536 : Shape := ⟨2, ![1, 65536]⟩
abbrev S65536x64 : Shape := ⟨2, ![65536, 64]⟩
abbrev S2000x64 : Shape := ⟨2, ![2000, 64]⟩
abbrev S2000x1 : Shape := ⟨2, ![2000, 1]⟩
abbrev S1x1024 : Shape := ⟨2, ![1, 1024]⟩
abbrev S1024x64 : Shape := ⟨2, ![1024, 64]⟩
abbrev S2000x1024 : Shape := ⟨2, ![2000, 1024]⟩

abbrev nBuf : Space → Nat
  | .hbm => 13
  | .vmem => 6
  | .smem => 0
  | _ => 0

abbrev bufTy : (tb : Table) → Fin (tcTables nBuf tb) → BufTy
  | .hbm, ⟨0, _⟩ => ⟨S1250000x64, .f32⟩
  | .hbm, ⟨1, _⟩ => ⟨S2x1250000, .i32⟩
  | .hbm, ⟨2, _⟩ => ⟨S1x1250000, .i32⟩
  | .hbm, ⟨3, _⟩ => ⟨S1250000, .i32⟩
  | .hbm, ⟨4, _⟩ => ⟨S_, .i32⟩
  | .hbm, ⟨5, _⟩ => ⟨S_, .i32⟩
  | .hbm, ⟨6, _⟩ => ⟨S1310720, .i32⟩
  | .hbm, ⟨7, _⟩ => ⟨S1x1310720, .i32⟩
  | .hbm, ⟨8, _⟩ => ⟨S1250000x64, .bf16⟩
  | .hbm, ⟨9, _⟩ => ⟨S_, .i32⟩
  | .hbm, ⟨10, _⟩ => ⟨S_, .bf16⟩
  | .hbm, ⟨11, _⟩ => ⟨S1310720x64, .bf16⟩
  | .hbm, ⟨12, _⟩ => ⟨S50000x64, .f32⟩
  | .local _ .vmem, ⟨0, _⟩ => ⟨S1x65536, .i32⟩
  | .local _ .vmem, ⟨1, _⟩ => ⟨S1x65536, .i32⟩
  | .local _ .vmem, ⟨2, _⟩ => ⟨S65536x64, .bf16⟩
  | .local _ .vmem, ⟨3, _⟩ => ⟨S65536x64, .bf16⟩
  | .local _ .vmem, ⟨4, _⟩ => ⟨S2000x64, .f32⟩
  | .local _ .vmem, ⟨5, _⟩ => ⟨S2000x64, .f32⟩
  | _, _ => ⟨S1250000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![25, 20], ![false, false]⟩

@[reducible] def k0_t1_loop : Scf.Loop 32 :=
  let c0_i32_1 : BitVec 32 := 0#32
  let c64_i32 : BitVec 32 := 64#32
  let v8 : BitVec 32 := Scalar.addi c0_i32_1 c64_i32
  let c1_i32 : BitVec 32 := 1#32
  ⟨c0_i32_1, v8, c1_i32⟩
def k0_mult1 (k0_t1 : Fin k0_t1_loop.trips) : BitVec 32 :=
  let c0_i32_1 : BitVec 32 := 0#32
  let c1_i32 : BitVec 32 := 1#32
  let arg5 : BitVec 32 := Scf.iv c0_i32_1 c1_i32 k0_t1
  let c1024_i32 : BitVec 32 := 1024#32
  let v14 : BitVec 32 := Scalar.muli arg5 c1024_i32
  v14
def k0_off1 (k0_t1 : Fin k0_t1_loop.trips) : Fin 2 → Nat :=
  let c0_6 : Index := 0#32
  let c0_i32_1 : BitVec 32 := 0#32
  let c1_i32 : BitVec 32 := 1#32
  let arg5 : BitVec 32 := Scf.iv c0_i32_1 c1_i32 k0_t1
  let c1024_i32 : BitVec 32 := 1024#32
  let v14 : BitVec 32 := Scalar.muli arg5 c1024_i32
  let v15 : BitVec 32 := v14
  let v16 : Index := Scalar.indexCast v15
  ![0, v16.toNat]
def k0_off2 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c1024_i32 : BitVec 32 := 1024#32
  let v14 : BitVec 32 := Scalar.muli arg5 c1024_i32
  let v15 : BitVec 32 := v14
  let v19 : Index := Scalar.indexCast v15
  let c0_7 : Index := 0#32
  ![v19.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x65536 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S65536x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S2x1250000_S1x1250000_1_0 : S2x1250000.Slices ![1, 0] S1x1250000
  shapeCasts_S1x1250000_S1250000 : S1x1250000.ShapeCasts S1250000
  pads_S1250000_S1310720_0607200 : S1250000.Pads (![0] : Fin 1 → Nat) ![60720] ![0] S1310720
  h_S_ : 0 < S_.numel
  shapeCasts_S1310720_S1x1310720 : S1310720.ShapeCasts S1x1310720
  bitsLt_bf16_f32 : FTy.bits .bf16 < FTy.bits .f32
  pads_S1250000x64_S1310720x64_0607200_000 : S1250000x64.Pads (![0, 0] : Fin 2 → Nat) ![60720, 0] ![0, 0] S1310720x64
  inb_S2000x64_S2000x64_0_0 : ∀ a, (![0, 0] : Fin 2 → Nat) a + S2000x64.size a ≤ S2000x64.size a
  h_S2000x64 : 0 < S2000x64.numel
  iota_S2000x1_d0_w32 : S2000x1.Iotas .tc 32 [0]
  h_S1x1024 : 0 < S1x1024.numel
  shapeCasts_S1x1024_S1x1024 : S1x1024.ShapeCasts S1x1024
  h_S1024x64 : 0 < S1024x64.numel
  shapeCasts_S1024x64_S1024x64 : S1024x64.ShapeCasts S1024x64
  broadcasts_S2000x1_S2000x1024 : S2000x1.Broadcasts S2000x1024
  broadcasts_S1x1024_S2000x1024 : S1x1024.Broadcasts S2000x1024
  natLt_1_32 : 1 < 32
  shapeCasts_S2000x64_S2000x64 : S2000x64.ShapeCasts S2000x64
  dot_S2000x1024_S1024x64_S2000x64_1_0_0_1_n_n_wf : DotDims.WF S2000x1024 S1024x64 S2000x64 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1x1024.size a ≤ S1x65536.size a
  k0_off2_inb : ∀ k0_t1 : Fin k0_t1_loop.trips, ∀ a, (k0_off2 k0_t1) a + S1024x64.size a ≤ S65536x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x65536.size a ≤ S1x1310720.size a
  hwx0_0 : ∀ i : grid0.Coords, EltTy.bits .i32 = 32 ∨ (Rect.block (s := S1x1310720) S1x65536.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S65536x64.size a ≤ S1310720x64.size a
  hwx0_1 : ∀ i : grid0.Coords, EltTy.bits .bf16 = 32 ∨ (Rect.block (s := S1310720x64) S65536x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)

variable [Facts₀]

def dot_S2000x1024_S1024x64_S2000x64_1_0_0_1_n_n : DotDims S2000x1024 S1024x64 S2000x64 where
  lhsContracting := [1]
  rhsContracting := [0]
  lhsNonContracting := [0]
  rhsNonContracting := [1]
  lhsBatch := []
  rhsBatch := []
  wf := dot_S2000x1024_S1024x64_S2000x64_1_0_0_1_n_n_wf

abbrev win0_0 : Pipeline.Window sig grid0 :=
  Pipeline.Window.ofSpec (Memref.whole main_v3) S1x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S65536x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1250000x64 : Shape := ⟨2, ![1250000, 64]⟩
abbrev S2x1250000 : Shape := ⟨2, ![2, 1250000]⟩
abbrev S1x1250000 : Shape := ⟨2, ![1, 1250000]⟩
abbrev S1250000 : Shape := ⟨1, ![1250000]⟩
abbrev S_ : Shape := ⟨0, ![]⟩
abbrev S50000x64 : Shape := ⟨2, ![50000, 64]⟩
abbrev S1250000x1 : Shape := ⟨2, ![1250000, 1]⟩

abbrev nBuf : Space → Nat
  | .hbm => 8
  | .vmem => 0
  | .smem => 0
  | _ => 0

abbrev bufTy : (tb : Table) → Fin (tcTables nBuf tb) → BufTy
  | .hbm, ⟨0, _⟩ => ⟨S1250000x64, .f32⟩
  | .hbm, ⟨1, _⟩ => ⟨S2x1250000, .i32⟩
  | .hbm, ⟨2, _⟩ => ⟨S1x1250000, .i32⟩
  | .hbm, ⟨3, _⟩ => ⟨S1250000, .i32⟩
  | .hbm, ⟨4, _⟩ => ⟨S_, .f32⟩
  | .hbm, ⟨5, _⟩ => ⟨S50000x64, .f32⟩
  | .hbm, ⟨6, _⟩ => ⟨S1250000x1, .i32⟩
  | .hbm, ⟨7, _⟩ => ⟨S50000x64, .f32⟩
  | _, _ => ⟨S1250000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  slices_S2x1250000_S1x1250000_1_0 : S2x1250000.Slices ![1, 0] S1x1250000
  shapeCasts_S1x1250000_S1250000 : S1x1250000.ShapeCasts S1250000
  bcast_S_S50000x64 : S_.BroadcastsInDim S50000x64 (![] : Fin 0 → Fin S50000x64.rank)
  bcast_S1250000_S1250000x1_0 : S1250000.BroadcastsInDim S1250000x1 (![0] : Fin 1 → Fin S1250000x1.rank)
  scatter_S50000x64_S1250000x1_S1250000x64_1_0_0_1_wf : ScatterDims.WF S50000x64 S1250000x1 S1250000x64 [1] [0] [0] 1

variable [Facts₀]

def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf

class Facts : Prop extends Facts₀ where

variable [Facts]
-- ==== Proof.Spec.lean ====
/-
  Segment sum: the value both programs compute, and the arithmetic of partial sums that joins them.

  For messages `msg : [1250000, 64]` over the extended reals and an integer table `ei : [2, 1250000]` whose second
  row names each edge's destination node, the result at node `r`, feature `d` is the sum of `msg e d` over the
  edges `e` whose destination word is the word of `r`.  An edge whose destination is no node's word (negative, or
  50000 and above) contributes nowhere.

  The kernel works on the edge axis padded to 1310720 = 20 · 65536 entries (destination word −1 and message 0 on
  the padding) and adds the edges up in blocks; `term`, `partialSum` state that over the natural numbers, so that
  blocks are ranges and the block step is `Finset.sum_range_add`.
-/
import Idealize.ShloMosaic.PureOps.Ideal
import Idealize.ShloMosaic.Lib.ValueIdx

noncomputable section

namespace Cert.SegSum

open Idealize.ShloMosaic Idealize.ShloMosaic.ValueIdx
open scoped BigOperators

abbrev SMsg : Shape := ⟨2, ![1250000, 64]⟩
abbrev SEi : Shape := ⟨2, ![2, 1250000]⟩
abbrev SOut : Shape := ⟨2, ![50000, 64]⟩

/-- The word of node `r`. -/
abbrev nodeWord (r : ℕ) : BitVec 32 := BitVec.ofNat 32 r

/-- THE RESULT: at node `i 0`, feature `i 1`, the sum of the messages of the edges whose destination is that node. -/
def G (msg : SMsg.Idx → EReal) (ei : SEi.Idx → BitVec 32) : SOut.Idx → EReal :=
  fun i => ∑ e : Fin 1250000, if ei (ix2 (1 : Fin 2) e) = nodeWord (i 0).val then msg (ix2 e (i 1)) else 0

/-- Edge `p`'s destination word on the padded edge axis: the table's second row, −1 past the last edge. -/
def dstN (ei : SEi.Idx → BitVec 32) (p : ℕ) : BitVec 32 :=
  if h : p < 1250000 then ei (ix2 (1 : Fin 2) (⟨p, h⟩ : Fin 1250000)) else 4294967295#32

/-- Edge `p`'s message on the padded edge axis: 0 past the last edge. -/
def msgN (msg : SMsg.Idx → EReal) (p : ℕ) (d : Fin 64) : EReal :=
  if h : p < 1250000 then msg (ix2 (⟨p, h⟩ : Fin 1250000) d) else 0

/-- Edge `p`'s contribution to node `r`, feature `d`. -/
def term (msg : SMsg.Idx → EReal) (ei : SEi.Idx → BitVec 32) (r : ℕ) (d : Fin 64) (p : ℕ) : EReal :=
  if dstN ei p = nodeWord r then msgN msg p d else 0

/-- The contributions of the first `B` padded edges. -/
def partialSum (msg : SMsg.Idx → EReal) (ei : SEi.Idx → BitVec 32) (r : ℕ) (d : Fin 64) (B : ℕ) : EReal :=
  ∑ p ∈ Finset.range B, term msg ei r d p

theorem partialSum_zero (msg : SMsg.Idx → EReal) (ei : SEi.Idx → BitVec 32) (r : ℕ) (d : Fin 64) :
    partialSum msg ei r d 0 = 0 := by
  unfold partialSum; simp

/-- One more block of `K` edges. -/
theorem partialSum_add (msg : SMsg.Idx → EReal) (ei : SEi.Idx → BitVec 32) (r : ℕ) (d : Fin 64) (B K : ℕ) :
    partialSum msg ei r d (B + K) = partialSum msg ei r d B + ∑ q ∈ Finset.range K, term msg ei r d (B + q) := by
  unfold partialSum; exact Finset.sum_range_add _ _ _

/-- The padding contributes nothing. -/
theorem term_pad (msg : SMsg.Idx → EReal) (ei : SEi.Idx → BitVec 32) (r : ℕ) (d : Fin 64) (p : ℕ) (hp : 1250000 ≤ p) :
    term msg ei r d p = 0 := by
  unfold term msgN
  rw [dif_neg (by omega)]
  split <;> rfl

/-- All of the padded axis is the result. -/
theorem partialSum_all (msg : SMsg.Idx → EReal) (ei : SEi.Idx → BitVec 32) (r : Fin 50000) (d : Fin 64) :
    partialSum msg ei r.val d 1310720 = G msg ei (ix2 r d) := by
  rw [show (1310720 : ℕ) = 1250000 + 60720 from rfl, partialSum_add,
    Finset.sum_eq_zero (fun q _ => term_pad msg ei _ _ _ (Nat.le_add_right _ _)), add_zero]
  unfold partialSum G
  rw [← Fin.sum_univ_eq_sum_range (fun p => term msg ei r.val d p) 1250000]
  refine Finset.sum_congr rfl fun e _ => ?_
  unfold term dstN msgN
  rw [dif_pos e.isLt, dif_pos e.isLt]

end Cert.SegSum

end
-- ==== Proof.KBody.lean ====
/-
  What one run of the kernel body leaves in the output block, as a function of its two input blocks (and, when the
  edge block is not the first of its row of the grid, of what the block held before).

  The body's counted loop walks the 65536 edges of the block in 64 chunks of 1024: trip `k` loads destination words
  and message rows `1024 k … 1024 k + 1023` and adds their one-hot product to the carried accumulator.  `loopVal` is
  the accumulator before trip `n`; after the loop the body stores `previous + loopVal 64`, the previous contents
  being zero at the first edge block (the body has just stored zeros) and what the point before left otherwise.
-/
import proofs.«422264_j51994874085823_1_alg».proof.Proof.Gen.KernelIdeal.Frame
import Idealize.ShloMosaic.Lib.Pipeline.Value

set_option maxRecDepth 16384

noncomputable section

namespace Cert.KernelIdeal.SegBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The loop makes 64 trips. -/
theorem trips_eq : k0_t1_loop.trips = 64 := by decide

/-- Chunk `k` of the destination words: words `1024 k` on of the block. -/
def dchunk (x0 : Vec F S1x65536 .i32) (k : Fin k0_t1_loop.trips) : Vec F S1x1024 .i32 :=
  View.ld x0 (Rect.unit (s := S1x65536) (k0_off1 k) S1x1024.size (k0_off1_inb k))

/-- Chunk `k` of the message rows: rows `1024 k` on of the block. -/
def mchunk (x1 : Vec F S65536x64 .bf16) (k : Fin k0_t1_loop.trips) : Vec F S1024x64 .bf16 :=
  View.ld x1 (Rect.unit (s := S65536x64) (k0_off2 k) S1024x64.size (k0_off2_inb k))

/-- The carried accumulator before trip `n`: zero, then one chunk's one-hot product added per trip. -/
def loopVal (i : grid0.Coords) (x0 : Vec F S1x65536 .i32) (x1 : Vec F S65536x64 .bf16) : ℕ → FVec F S2000x64 .f32
  | 0 => k0_pay2 (F := F)
  | n + 1 => if h : n < k0_t1_loop.trips then k0_pay3 i (loopVal i x0 x1 n) (dchunk x0 ⟨n, h⟩) (mchunk x1 ⟨n, h⟩)
      else loopVal i x0 x1 n

theorem loopVal_zero (i : grid0.Coords) (x0 : Vec F S1x65536 .i32) (x1 : Vec F S65536x64 .bf16) :
    loopVal i x0 x1 0 = k0_pay2 (F := F) := rfl

theorem loopVal_succ (i : grid0.Coords) (x0 : Vec F S1x65536 .i32) (x1 : Vec F S65536x64 .bf16) (k : Fin k0_t1_loop.trips) :
    loopVal i x0 x1 (k.val + 1) = k0_pay3 i (loopVal i x0 x1 k.val) (dchunk x0 k) (mchunk x1 k) := by
  rw [loopVal]; exact dif_pos k.isLt

/-- One trip's result: the payload of the two chunks it loads, over the carried value. -/
theorem trip_eq (𝒱 : Variants) (c : Dev nD) (bd : Option 𝒱.V) (i : grid0.Coords) (arg2 : Memref sig .tc .vmem S1x65536 .i32) (harg2 : arg2.IsWhole) (arg3 : Memref sig .tc .vmem S65536x64 .bf16) (harg3 : arg3.IsWhole) (arg4 : Memref sig .tc .vmem S2000x64 .f32) (harg4 : arg4.IsWhole)
    (x0 : Vec F S1x65536 .i32) (x1 : Vec F S65536x64 .bf16) (k : Fin k0_t1_loop.trips) (acc : FVec F S2000x64 .f32) :
    tripR_k0_t1 (F := F) 𝒱 c bd i arg2 harg2 arg3 harg3 arg4 harg4 (harg2.unread x0) (harg3.unread x1) k acc
      = k0_pay3 i acc (dchunk x0 k) (mchunk x1 k) := by
  unfold tripR_k0_t1 trip_k0_t1 dchunk mchunk
  dsimp only
  simp only [View.readAt_eq_ld, harg2.read_unread, harg3.read_unread]

/-- The loop's carried value, trip by trip, is `loopVal`. -/
theorem st_eq (𝒱 : Variants) (c : Dev nD) (bd : Option 𝒱.V) (i : grid0.Coords) (arg2 : Memref sig .tc .vmem S1x65536 .i32) (harg2 : arg2.IsWhole) (arg3 : Memref sig .tc .vmem S65536x64 .bf16) (harg3 : arg3.IsWhole) (arg4 : Memref sig .tc .vmem S2000x64 .f32) (harg4 : arg4.IsWhole)
    (x0 : Vec F S1x65536 .i32) (x1 : Vec F S65536x64 .bf16) (n : ℕ) :
    st_k0_t1 (F := F) 𝒱 c bd i arg2 harg2 arg3 harg3 arg4 harg4 (harg2.unread x0) (harg3.unread x1) (k0_pay2 (F := F)) n
      = loopVal i x0 x1 n := by
  induction n with
  | zero => rfl
  | succ n ih =>
    rw [st_k0_t1.eq_2, loopVal]
    unfold st_k0_t1Step
    by_cases h : n < k0_t1_loop.trips
    · rw [dif_pos h, dif_pos h, ih]; exact trip_eq 𝒱 c bd i arg2 harg2 arg3 harg3 arg4 harg4 x0 x1 ⟨n, h⟩ _
    · rw [dif_neg h, dif_neg h, ih]

theorem hz2 : (![0, 0] : Fin S2000x64.rank → Nat) = fun _ => 0 := by
  funext a; match a with | ⟨0, _⟩ => rfl | ⟨1, _⟩ => rfl

/-- At an edge block that is not the first of its row: the block's previous contents plus the loop's sum. -/
theorem out0_B_2_eq (c : Dev nD) (i : grid0.Coords) (arg2 : Memref sig .tc .vmem S1x65536 .i32) (harg2 : arg2.IsWhole) (arg3 : Memref sig .tc .vmem S65536x64 .bf16) (harg3 : arg3.IsWhole) (arg4 : Memref sig .tc .vmem S2000x64 .f32) (harg4 : arg4.IsWhole) (hc0 : ¬cond0_0 i)
    (x0 : Vec F S1x65536 .i32) (x1 : Vec F S65536x64 .bf16) (xo2 : Vec F S2000x64 .f32) :
    out0_B_2 c i arg2 harg2 arg3 harg3 arg4 harg4 hc0 x0 x1 xo2 = k0_pay4 (loopVal i x0 x1 k0_t1_loop.trips) xo2 := by
  unfold out0_B_2
  rw [View.read_writes_eq_canon _ _ _ (cover0_B_2 c i arg2 harg2 arg3 harg3 arg4 harg4 hc0 x0 x1 xo2)]
  unfold kernelRun0_B
  dsimp only
  sl_unfold_words
  rw [View.canon_unit_zero hz2]
  simp only [View.readAt_eq_ld, harg4.read_unread, View.ld_unit_zero (S := S2000x64) hz2, st_eq]

/-- At the first edge block of a row: zero plus the loop's sum. -/
theorem out0_A_2_eq (c : Dev nD) (i : grid0.Coords) (arg2 : Memref sig .tc .vmem S1x65536 .i32) (harg2 : arg2.IsWhole) (arg3 : Memref sig .tc .vmem S65536x64 .bf16) (harg3 : arg3.IsWhole) (arg4 : Memref sig .tc .vmem S2000x64 .f32) (harg4 : arg4.IsWhole) (hc0 : cond0_0 i)
    (x0 : Vec F S1x65536 .i32) (x1 : Vec F S65536x64 .bf16) :
    out0_A_2 c i arg2 harg2 arg3 harg3 arg4 harg4 hc0 x0 x1 = k0_pay4 (loopVal i x0 x1 k0_t1_loop.trips) (k0_pay1 (F := F)) := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S2000x64) hz2, View.readCov_unit_zero (S := S2000x64) _ hz2]
  simp only [st_eq]

end Cert.KernelIdeal.SegBody

end
-- ==== Proof.KIdeal.lean ====
/-
  The body's payloads read at an index, at the ideal instance (floats extended reals, operations exact).

  One trip adds to the accumulator, at node row `n` and feature `d`, the sum over its 1024 edges `j` of
  `[node word = destination word j] · message j d`: the one-hot factor is the comparison's bit widened and converted,
  1 or 0, and `1 · x = x`, `0 · x = 0` on every extended real, so the product is the message where the words agree
  and 0 elsewhere.  Sixty-four trips add up the block's 65536 edges (`loopVal_apply`), in the order of the edge axis.
-/
import proofs.«422264_j51994874085823_1_alg».proof.Proof.Spec
import proofs.«422264_j51994874085823_1_alg».proof.Proof.KBody
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.SegIdeal

open Cert.KernelIdeal Cert.KernelIdeal.Gen Cert.KernelIdeal.SegBody Cert.SegSum
open Idealize.ShloMosaic Idealize.ShloMosaic.TcCoe Idealize.ShloMosaic.ValueIdx
open scoped BigOperators

abbrev DD := dot_S2000x1024_S1024x64_S2000x64_1_0_0_1_n_n

theorem lhs_0 (j : S2000x64.Idx) (k : DD.contr.Idx) : (DD.lhsIdx j k 0 : ℕ) = j 0 := by
  simp [DotDims.lhsIdx, DD, dot_S2000x1024_S1024x64_S2000x64_1_0_0_1_n_n]; rfl
theorem lhs_1 (j : S2000x64.Idx) (k : DD.contr.Idx) : (DD.lhsIdx j k 1 : ℕ) = k ⟨0, by decide⟩ := by
  simp [DotDims.lhsIdx, DD, dot_S2000x1024_S1024x64_S2000x64_1_0_0_1_n_n]; rfl
theorem rhs_0 (j : S2000x64.Idx) (k : DD.contr.Idx) : (DD.rhsIdx j k 0 : ℕ) = k ⟨0, by decide⟩ := by
  simp [DotDims.rhsIdx, DD, dot_S2000x1024_S1024x64_S2000x64_1_0_0_1_n_n]; rfl
theorem rhs_1 (j : S2000x64.Idx) (k : DD.contr.Idx) : (DD.rhsIdx j k 1 : ℕ) = j 1 := by
  simp [DotDims.rhsIdx, DD, dot_S2000x1024_S1024x64_S2000x64_1_0_0_1_n_n]; rfl

/-- The one-hot factor: 1 where the two words agree, 0 where they differ. -/
theorem onehot_val (x y : BitVec 32) :
    (((((IntOp.cmpi .eq x y).setWidth 32).toInt : ℤ) : ℝ) : EReal) = if x = y then 1 else 0 := by
  by_cases h : x = y
  · subst h; simp [IntOp.cmpi]
  · have hb : (x == y) = false := by simpa using h
    simp [IntOp.cmpi, hb, h]

/-- One trip's payload at row `n`, feature `d`: the carried value plus the chunk's matching messages. -/
theorem pay3_apply (i : grid0.Coords) (acc : FVec Ideal S2000x64 .f32) (v17 : Vec Ideal S1x1024 .i32) (v20 : Vec Ideal S1024x64 .bf16) (n : Fin 2000) (d : Fin 64) :
    k0_pay3 (F := Ideal) i acc v17 v20 (ix2 n d)
      = acc (ix2 n d) + ∑ j : Fin 1024,
          if Scalar.muli (BitVec.ofNat 32 (i 0).val) 2000#32 + BitVec.ofNat 32 n.val = v17 (ix2 (0 : Fin 1) j) then (v20 (ix2 j d) : EReal) else 0 := by
  unfold k0_pay3
  dsimp only
  rw [addf_apply]
  refine congrArg (fun z : EReal => acc (ix2 n d) + z) ?_
  simp only [matmul]
  refine (Ideal.matmul_constant_zero_apply DD none _ _ (ix2 n d)).trans ?_
  rw [← Equiv.sum_comp (contrEquiv1 DD 1024 rfl rfl).symm]
  refine Finset.sum_congr rfl fun j _ => ?_
  have hl : DD.lhsIdx (ix2 n d) ((contrEquiv1 DD 1024 rfl rfl).symm j) = (ix2 n j : S2000x1024.Idx) :=
    Shape.idx_ext₂ (lhs_0 _ _) ((lhs_1 _ _).trans (contrEquiv1_symm_val DD 1024 rfl rfl j))
  have hr : DD.rhsIdx (ix2 n d) ((contrEquiv1 DD 1024 rfl rfl).symm j) = (ix2 j d : S1024x64.Idx) :=
    Shape.idx_ext₂ ((rhs_0 _ _).trans (contrEquiv1_symm_val DD 1024 rfl rfl j)) (rhs_1 _ _)
  rw [hl, hr, shapeCast_self, shapeCast_self]
  have hA : broadcastTo S2000x1024
                (addi (broadcast S2000x1 (Scalar.muli (BitVec.ofNat 32 (i 0).val) 2000#32))
                  (iota Kind.tc S2000x1 32 [0] iota_S2000x1_d0_w32))
                broadcasts_S2000x1_S2000x1024 (ix2 n j)
        = Scalar.muli (BitVec.ofNat 32 (i 0).val) 2000#32 + BitVec.ofNat 32 n.val := by
    refine (broadcastTo_apply _ broadcasts_S2000x1_S2000x1024 (ix2 n j) (ix2 n (0 : Fin 1)) ?_).trans ?_
    · intro a; match a with
      | ⟨0, _⟩ => rfl
      | ⟨1, _⟩ => rfl
    · show _ + iota Kind.tc S2000x1 32 [0] iota_S2000x1_d0_w32 (ix2 n (0 : Fin 1)) = _
      rw [iota_single_apply]
      rfl
  have hB : broadcastTo S2000x1024 v17 broadcasts_S1x1024_S2000x1024 (ix2 n j) = v17 (ix2 (0 : Fin 1) j) := by
    refine broadcastTo_apply _ broadcasts_S1x1024_S2000x1024 (ix2 n j) (ix2 (0 : Fin 1) j) ?_
    intro a; match a with
      | ⟨0, _⟩ => rfl
      | ⟨1, _⟩ => rfl
  show (((((IntOp.cmpi .eq _ _).setWidth 32).toInt : ℤ) : ℝ) : EReal) * _ = _
  rw [hA, hB, onehot_val]
  split <;> simp

/-- The accumulator starts at zero. -/
theorem pay2_apply (j : S2000x64.Idx) : k0_pay2 (F := Ideal) j = 0 := by
  show Ideal.ofBits .f32 0x00000000#32 = 0
  exact Ideal.ofBits_zero_f32

/-- The zeros stored at a row's first edge block. -/
theorem pay1_apply (j : S2000x64.Idx) : k0_pay1 (F := Ideal) j = 0 := by
  show Ideal.ofBits .f32 0x00000000#32 = 0
  exact Ideal.ofBits_zero_f32

/-- The final store: the block's previous contents plus the loop's sum. -/
theorem pay4_apply (v9 : FVec Ideal S2000x64 .f32) (v10 : Vec Ideal S2000x64 .f32) (j : S2000x64.Idx) :
    k0_pay4 (F := Ideal) v9 v10 j = v10 j + v9 j := by
  unfold k0_pay4
  rw [addf_apply, shapeCast_self]

variable {F : FTy → Type} [FloatOps F]

/-- Word `j` of chunk `k` is word `1024 k + j` of the block. -/
theorem dchunk_apply (x0 : Vec F S1x65536 .i32) (k : Fin k0_t1_loop.trips) (j : Fin 1024) (h : 1024 * k.val + j.val < 65536) :
    dchunk x0 k (ix2 (0 : Fin 1) j) = x0 (ix2 (0 : Fin 1) (⟨1024 * k.val + j.val, h⟩ : Fin 65536)) := by
  unfold dchunk
  show x0 ((Rect.unit (s := S1x65536) (k0_off1 k) S1x1024.size (k0_off1_inb k)).idx (ix2 (0 : Fin 1) j)) = _
  refine congrArg x0 (Shape.idx_ext₂ ?_ ?_)
  · rw [LoadRect.idx_apply]; simp [Rect.unit, k0_off1_eq k]
  · rw [LoadRect.idx_apply]; simp [Rect.unit, k0_off1_eq k]

/-- Row `j` of chunk `k` is row `1024 k + j` of the block. -/
theorem mchunk_apply (x1 : Vec F S65536x64 .bf16) (k : Fin k0_t1_loop.trips) (j : Fin 1024) (d : Fin 64) (h : 1024 * k.val + j.val < 65536) :
    mchunk x1 k (ix2 j d) = x1 (ix2 (⟨1024 * k.val + j.val, h⟩ : Fin 65536) d) := by
  unfold mchunk
  show x1 ((Rect.unit (s := S65536x64) (k0_off2 k) S1024x64.size (k0_off2_inb k)).idx (ix2 j d)) = _
  refine congrArg x1 (Shape.idx_ext₂ ?_ ?_)
  · rw [LoadRect.idx_apply]; simp [Rect.unit, k0_off2_eq k]
  · rw [LoadRect.idx_apply]; simp [Rect.unit, k0_off2_eq k]

/-- Edge `q` of a block contributes its message to the row whose word is its destination word. -/
def blkTerm (w : BitVec 32) (x0 : Vec Ideal S1x65536 .i32) (x1 : Vec Ideal S65536x64 .bf16) (d : Fin 64) (q : ℕ) : EReal :=
  if h : q < 65536 then
    (if w = x0 (ix2 (0 : Fin 1) (⟨q, h⟩ : Fin 65536)) then (x1 (ix2 (⟨q, h⟩ : Fin 65536) d) : EReal) else 0)
  else 0

/-- The row's word at the body's point `i`: `2000 ·` the node tile `+` the row, in 32-bit words. -/
abbrev rowWord (i : grid0.Coords) (n : Fin 2000) : BitVec 32 :=
  Scalar.muli (BitVec.ofNat 32 (i 0).val) 2000#32 + BitVec.ofNat 32 n.val

/-- Before trip `K` the accumulator holds the contributions of the block's first `1024 K` edges. -/
theorem loopVal_apply (i : grid0.Coords) (x0 : Vec Ideal S1x65536 .i32) (x1 : Vec Ideal S65536x64 .bf16) (n : Fin 2000) (d : Fin 64) :
    ∀ K : ℕ, K ≤ 64 → loopVal (F := Ideal) i x0 x1 K (ix2 n d) = ∑ q ∈ Finset.range (1024 * K), blkTerm (rowWord i n) x0 x1 d q
  | 0, _ => by rw [loopVal_zero, pay2_apply]; simp
  | K + 1, hK => by
    have hlt : K < k0_t1_loop.trips := by rw [trips_eq]; omega
    rw [show K + 1 = (⟨K, hlt⟩ : Fin k0_t1_loop.trips).val + 1 from rfl, loopVal_succ, pay3_apply,
      loopVal_apply i x0 x1 n d K (by omega), show 1024 * ((⟨K, hlt⟩ : Fin k0_t1_loop.trips).val + 1) = 1024 * K + 1024 from by ring,
      Finset.sum_range_add, ← Fin.sum_univ_eq_sum_range (fun j => blkTerm (rowWord i n) x0 x1 d (1024 * K + j)) 1024]
    refine congrArg (fun z : EReal => _ + z) (Finset.sum_congr rfl fun j _ => ?_)
    have hj : 1024 * K + j.val < 65536 := by have := j.isLt; omega
    rw [dchunk_apply x0 ⟨K, hlt⟩ j hj, mchunk_apply x1 ⟨K, hlt⟩ j d hj]
    unfold blkTerm
    rw [dif_pos hj]

end Cert.KernelIdeal.SegIdeal

end
-- ==== Proof.KBlk.lean ====
/-
  The blocks the kernel body is handed at grid point `t` (node tile `t / 20`, edge block `t % 20`): window 0's block
  is the 65536 destination words from edge `65536 · (t % 20)` on, window 1's block the same edges' message rows.
-/
import proofs.«422264_j51994874085823_1_alg».proof.Proof.Gen.KernelIdeal.Frame
import Idealize.ShloMosaic.Lib.ValueIdx
import Idealize.ShloMosaic.Lib.Pipeline.Value

noncomputable section

namespace Cert.KernelIdeal.SegBlk

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The grid has 500 points. -/
theorem N_eq : cfg0.N = 500 := N_0

/-- Window 0's block at point `t`, named at its literal type. -/
abbrev dblk (c : Dev nD) (t : Fin cfg0.N) : Vec F S1x65536 .i32 := iblk m c 0 t
/-- Window 1's block at point `t`, named at its literal type. -/
abbrev mblk (c : Dev nD) (t : Fin cfg0.N) : Vec F S65536x64 .bf16 := iblk m c 1 t
/-- The two operand arrays as the region finds them, at their literal types. -/
abbrev darr (c : Dev nD) : Vec F S1x1310720 .i32 := V m c main_v3
abbrev marr (c : Dev nD) : Vec F S1310720x64 .bf16 := V m c main_v5

/-- Window 0's block index at point `t`: 0 on the unit axis, the edge block `t % 20` on the edge axis. -/
theorem idx0 : ∀ t : Fin cfg0.N, win0_0.index t (0 : Fin 2) = 0 ∧ win0_0.index t (1 : Fin 2) = t.val % 20 :=
  (by decide +kernel : ∀ t : Fin grid0.N, _)
/-- Window 1's block index at point `t`: the edge block `t % 20` on the edge axis, 0 on the feature axis. -/
theorem idx1 : ∀ t : Fin cfg0.N, win0_1.index t (0 : Fin 2) = t.val % 20 ∧ win0_1.index t (1 : Fin 2) = 0 :=
  (by decide +kernel : ∀ t : Fin grid0.N, _)
/-- Window 2's block index at point `t`: the node tile `t / 20` on the node axis, 0 on the feature axis. -/
theorem idx2 : ∀ t : Fin cfg0.N, win0_2.index t (0 : Fin 2) = t.val / 20 ∧ win0_2.index t (1 : Fin 2) = 0 :=
  (by decide +kernel : ∀ t : Fin grid0.N, _)

/-- Destination word `q` of the block at point `t` is word `65536 · (t % 20) + q` of the padded array. -/
theorem dblk_apply (c : Dev nD) (t : Fin cfg0.N) (q : Fin 65536) (h : 65536 * (t.val % 20) + q.val < 1310720) :
    dblk m c t (ix2 (0 : Fin 1) q) = darr m c (ix2 (0 : Fin 1) (⟨65536 * (t.val % 20) + q.val, h⟩ : Fin 1310720)) := by
  obtain ⟨e0, e1⟩ := idx0 t
  show V m c main_v3 (((cfg0.win 0).blk t).view.emb (ix2 (0 : Fin 1) q)) = V m c main_v3 (ix2 (0 : Fin 1) (⟨65536 * (t.val % 20) + q.val, h⟩ : Fin 1310720))
  refine congrArg (V m c main_v3) ?_
  funext a; apply Fin.ext
  match a with
  | ⟨0, _⟩ => show win0_0.index t (0 : Fin 2) * 1 + 1 * 0 = 0; omega
  | ⟨1, _⟩ => show win0_0.index t (1 : Fin 2) * 65536 + 1 * q.val = 65536 * (t.val % 20) + q.val; omega

/-- Message row `q` of the block at point `t` is row `65536 · (t % 20) + q` of the padded array. -/
theorem mblk_apply (c : Dev nD) (t : Fin cfg0.N) (q : Fin 65536) (d : Fin 64) (h : 65536 * (t.val % 20) + q.val < 1310720) :
    mblk m c t (ix2 q d) = marr m c (ix2 (⟨65536 * (t.val % 20) + q.val, h⟩ : Fin 1310720) d) := by
  obtain ⟨e0, e1⟩ := idx1 t
  show V m c main_v5 (((cfg0.win 1).blk t).view.emb (ix2 q d)) = V m c main_v5 (ix2 (⟨65536 * (t.val % 20) + q.val, h⟩ : Fin 1310720) d)
  refine congrArg (V m c main_v5) ?_
  funext a; apply Fin.ext
  match a with
  | ⟨0, _⟩ => show win0_1.index t (0 : Fin 2) * 65536 + 1 * q.val = 65536 * (t.val % 20) + q.val; omega
  | ⟨1, _⟩ => show win0_1.index t (1 : Fin 2) * 64 + 1 * d.val = d.val; omega

/-- The output block of point `t` is rows `2000 · (t / 20)` on of the result array: row `n` of the block is that row. -/
theorem oblk_emb (t : Fin cfg0.N) (n : Fin 2000) (d : Fin 64) (h : 2000 * (t.val / 20) + n.val < 50000) :
    ((cfg0.win 2).blk t).view.emb (ix2 n d) = (ix2 (⟨2000 * (t.val / 20) + n.val, h⟩ : Fin 50000) d : S50000x64.Idx) := by
  obtain ⟨e0, e1⟩ := idx2 t
  funext a; apply Fin.ext
  match a with
  | ⟨0, _⟩ => show win0_2.index t (0 : Fin 2) * 2000 + 1 * n.val = 2000 * (t.val / 20) + n.val; omega
  | ⟨1, _⟩ => show win0_2.index t (1 : Fin 2) * 64 + 1 * d.val = d.val; omega

end Cert.KernelIdeal.SegBlk

end
-- ==== Proof.KHost.lean ====
/-
  What the kernel region finds in its two operand arrays: the host operations before it pad the edge axis from
  1250000 to 1310720 entries — the destination words (row 1 of the index table) with the word −1, the messages
  (a change of float format, the identity on the extended reals) with 0.
-/
import proofs.«422264_j51994874085823_1_alg».proof.Proof.Spec
import proofs.«422264_j51994874085823_1_alg».proof.Proof.Gen.KernelIdeal.Frame
import Idealize.ShloMosaic.Lib.ValueIdx
import Idealize.ShloMosaic.Lib.Pipeline.Value
import Idealize.ShloMosaic.Lib.StableHlo.Run
import Idealize.ShloMosaic.Lib.KernelVsHost
import Idealize.ShloMosaic.PureOps.Ideal

noncomputable section

namespace Cert.KernelIdeal.SegHost

open Cert.KernelIdeal Cert.KernelIdeal.Gen Cert.SegSum
open Idealize.ShloMosaic Idealize.ShloMosaic.TcCoe Idealize.ShloMosaic.ValueIdx Idealize.SL.Sem

variable (m : (ℓ : Loc nD τ sig) → Buf (Elt Ideal) ℓ)

/-- The destination array as the host operations compose it: row 1 of the index table sliced out, flattened to a
    vector, padded behind with the word −1, and given a leading unit axis. -/
theorem dst_term (c : Dev nD) :
    (V m c main_v3 : S1x1310720.Idx → BitVec 32)
      = shapeCast S1x1310720
          (pad S1310720 ![0] ![60720] ![0]
            (shapeCast S1250000
              (extractStridedSlice S1x1250000 ![1, 0] (m ((c : Thread nD τ).loc main_arg1))
                slices_S2x1250000_S1x1250000_1_0)
              shapeCasts_S1x1250000_S1250000)
            (constantI S_ 32 4294967295#32) pads_S1250000_S1310720_0607200 h_S_)
          shapeCasts_S1310720_S1x1310720 := by
  dsimp only [Gen.V]
  simp only [hostOps0, hostOps0_1, hostOps0_2, hostOps0_3, List.flatten_cons, List.flatten_nil, List.append_nil,
    List.cons_append, List.nil_append]
  after_results
  dsimp only [StableHlo.TRef.toBuf, StableHlo.TRef.ofBuf, StableHlo.TRef.of, id_eq, cast_eq]
  rfl

/-- The message array as the host operations compose it: the messages in the narrower float format, padded behind
    along the edge axis with the integer 0 converted. -/
theorem msg_term (c : Dev nD) :
    (V m c main_v5 : S1310720x64.Idx → EReal)
      = pad S1310720x64 ![0, 0] ![60720, 0] ![0, 0]
          (truncf (F := Ideal) .bf16 (m ((c : Thread nD τ).loc main_arg0)) bitsLt_bf16_f32)
          (sitofp (F := Ideal) .bf16 (constantI S_ 32 0#32))
          pads_S1250000x64_S1310720x64_0607200_000 h_S_ := by
  dsimp only [Gen.V]
  simp only [hostOps0, hostOps0_1, hostOps0_2, hostOps0_3, List.flatten_cons, List.flatten_nil, List.append_nil,
    List.cons_append, List.nil_append]
  after_results
  rfl

/-- The padded destination words the region finds: the index table's second row, then −1. -/
theorem V_dst (c : Dev nD) (q : Fin 1310720) :
    (V m c main_v3 : S1x1310720.Idx → BitVec 32) (ix2 (0 : Fin 1) q)
      = dstN (m ((c : Thread nD τ).loc main_arg1)) q.val := by
  refine (congrFun (dst_term m c) _).trans ?_
  have hq : q.val < 1310720 := q.isLt
  -- the leading unit axis: position q of the padded vector
  refine (shapeCast_apply _ shapeCasts_S1310720_S1x1310720 (ix2 (0 : Fin 1) q) (ix1 q) (by
    rw [Shape.rowMajor_val_one, Shape.rowMajor_val_two]
    show q.val = 0 * 1310720 + q.val
    omega)).trans ?_
  unfold dstN
  by_cases h : q.val < 1250000
  · -- inside the table: the vector's entry q, which is row 1, column q of the table
    rw [dif_pos h]
    refine (pad_apply_of_inside _ _ _ _ _ pads_S1250000_S1310720_0607200 h_S_ (ix1 q)
      (ix1 (⟨q.val, h⟩ : Fin 1250000)) (by
        intro a
        have ha : a = 0 := Subsingleton.elim _ _
        subst ha
        show q.val = 0 + q.val * (0 + 1)
        omega)).trans ?_
    refine (shapeCast_apply _ shapeCasts_S1x1250000_S1250000 (ix1 (⟨q.val, h⟩ : Fin 1250000))
      (ix2 (0 : Fin 1) (⟨q.val, h⟩ : Fin 1250000)) (by
        rw [Shape.rowMajor_val_one, Shape.rowMajor_val_two]
        show 0 * 1250000 + q.val = q.val
        omega)).trans ?_
    exact extractStridedSlice_apply ![1, 0] _ slices_S2x1250000_S1x1250000_1_0 _
      (ix2 (1 : Fin 2) (⟨q.val, h⟩ : Fin 1250000)) (fun a => match a with
        | ⟨0, _⟩ => by show 1 = 1 + 0; omega
        | ⟨1, _⟩ => by show q.val = 0 + q.val; omega)
  · -- behind the table: the padding word
    rw [dif_neg h]
    refine (pad_apply_of_not_inside _ _ _ _ _ pads_S1250000_S1310720_0607200 h_S_ (ix1 q) (0 : Fin 1) (by
      intro hin
      have e : (q.val - 0) / (0 + 1) < 1250000 := hin.2.2
      omega)).trans ?_
    rfl

/-- The padded messages the region finds: the messages, then 0. -/
theorem V_msg (c : Dev nD) (q : Fin 1310720) (d : Fin 64) :
    (V m c main_v5 : S1310720x64.Idx → EReal) (ix2 q d)
      = msgN (m ((c : Thread nD τ).loc main_arg0)) q.val d := by
  refine (congrFun (msg_term m c) _).trans ?_
  unfold msgN
  by_cases h : q.val < 1250000
  · -- inside the messages: the format change is the identity on the extended reals
    rw [dif_pos h]
    refine (pad_apply_of_inside _ _ _ _ _ pads_S1250000x64_S1310720x64_0607200_000 h_S_ (ix2 q d)
      (ix2 (⟨q.val, h⟩ : Fin 1250000) d) (fun a => match a with
        | ⟨0, _⟩ => by show q.val = 0 + q.val * (0 + 1); omega
        | ⟨1, _⟩ => by show d.val = 0 + d.val * (0 + 1); omega)).trans ?_
    rfl
  · -- behind the messages: the integer 0 converted is the real 0
    rw [dif_neg h]
    refine (pad_apply_of_not_inside _ _ _ _ _ pads_S1250000x64_S1310720x64_0607200_000 h_S_ (ix2 q d)
      (0 : Fin 2) (by
        intro hin
        have e : (q.val - 0) / (0 + 1) < 1250000 := hin.2.2
        omega)).trans ?_
    show ((((0#32 : BitVec 32).toInt : ℤ) : ℝ) : EReal) = 0
    simp

end Cert.KernelIdeal.SegHost

end
-- ==== Proof.KAcc.lean ====
/-
  The accumulation over the grid, at the ideal instance: what the output block holds after each grid point, and
  the array the region leaves.

  Point `t` works on node tile `t / 20` and edge block `t % 20`.  After it, row `n`, feature `d` of the output block
  holds the contributions to node `2000 (t / 20) + n` of the first `65536 (t % 20 + 1)` padded edges: at the first
  edge block of a tile the body starts from zero, at every other it adds its block's contributions to what the point
  before left.  The block is written back after the last edge block of its tile (`t % 20 = 19`), when it holds the
  contributions of all `1310720` padded edges — the segment sum; the 25 tiles cover the 50000 nodes.
-/
import proofs.«422264_j51994874085823_1_alg».proof.Proof.Spec
import proofs.«422264_j51994874085823_1_alg».proof.Proof.KBody
import proofs.«422264_j51994874085823_1_alg».proof.Proof.KIdeal
import proofs.«422264_j51994874085823_1_alg».proof.Proof.KBlk
import proofs.«422264_j51994874085823_1_alg».proof.Proof.KHost
import proofs.«422264_j51994874085823_1_alg».proof.Proof.Gen.KernelIdeal.Value

set_option maxRecDepth 16384

noncomputable section

namespace Cert.KernelIdeal.SegAcc

open Cert.KernelIdeal Cert.KernelIdeal.Gen Cert.KernelIdeal.Value
open Cert.KernelIdeal.SegBody Cert.KernelIdeal.SegIdeal Cert.KernelIdeal.SegBlk Cert.KernelIdeal.SegHost Cert.SegSum
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ)

/-- The two arguments on core `c`, at the specification's types. -/
abbrev msgA (c : Dev nD) : SMsg.Idx → EReal := m ((c : Thread nD τ).loc main_arg0)
abbrev eiA (c : Dev nD) : SEi.Idx → BitVec 32 := m ((c : Thread nD τ).loc main_arg1)

/-- Point `t`'s first grid coordinate is its node tile. -/
theorem coords0 : ∀ t : Fin cfg0.N, (grid0.coords t 0).val = t.val / 20 :=
  (by decide +kernel : ∀ t : Fin grid0.N, (grid0.coords t 0).val = t.val / 20)

/-- The row's word at point `t` is the word of node `2000 (t / 20) + n`. -/
theorem rowWord_eq (t : Fin cfg0.N) (n : Fin 2000) :
    rowWord (grid0.coords t) n = nodeWord (2000 * (t.val / 20) + n.val) := by
  unfold rowWord nodeWord
  rw [coords0 t]
  show BitVec.ofNat 32 (t.val / 20) * BitVec.ofNat 32 2000 + BitVec.ofNat 32 n.val = _
  rw [← BitVec.ofNat_mul, ← BitVec.ofNat_add, Nat.mul_comm]

/-- Edge `q` of point `t`'s blocks is padded edge `65536 (t % 20) + q`. -/
theorem blkTerm_eq (c : Dev nD) (t : Fin cfg0.N) (n : Fin 2000) (d : Fin 64) (q : ℕ) (hq : q < 65536) :
    blkTerm (rowWord (grid0.coords t) n) (dblk m c t) (mblk m c t) d q
      = term (msgA m c) (eiA m c) (2000 * (t.val / 20) + n.val) d (65536 * (t.val % 20) + q) := by
  have ht : t.val < 500 := lt_of_lt_of_eq t.isLt N_eq
  have h : 65536 * (t.val % 20) + q < 1310720 := by omega
  unfold blkTerm term
  rw [dif_pos hq, dblk_apply m c t ⟨q, hq⟩ h, mblk_apply m c t ⟨q, hq⟩ d h, rowWord_eq]
  show (if _ = (V m c main_v3 : S1x1310720.Idx → BitVec 32) (ix2 (0 : Fin 1) (⟨65536 * (t.val % 20) + q, h⟩ : Fin 1310720))
      then (V m c main_v5 : S1310720x64.Idx → EReal) (ix2 (⟨65536 * (t.val % 20) + q, h⟩ : Fin 1310720) d) else (0 : EReal)) = _
  rw [V_dst m c ⟨65536 * (t.val % 20) + q, h⟩, V_msg m c ⟨65536 * (t.val % 20) + q, h⟩ d]
  show (if nodeWord (2000 * (t.val / 20) + n.val) = dstN (eiA m c) (65536 * (t.val % 20) + q) then msgN (msgA m c) (65536 * (t.val % 20) + q) d else (0 : EReal))
    = if dstN (eiA m c) (65536 * (t.val % 20) + q) = nodeWord (2000 * (t.val / 20) + n.val) then msgN (msgA m c) (65536 * (t.val % 20) + q) d else 0
  by_cases hc : dstN (eiA m c) (65536 * (t.val % 20) + q) = nodeWord (2000 * (t.val / 20) + n.val)
  · rw [if_pos hc, if_pos hc.symm]
  · rw [if_neg hc, if_neg (fun h' => hc h'.symm)]

/-- The loop's sum at point `t`: the contributions of the 65536 padded edges of its block. -/
theorem loop_at (c : Dev nD) (t : Fin cfg0.N) (n : Fin 2000) (d : Fin 64) :
    loopVal (F := Ideal) (grid0.coords t) (dblk m c t) (mblk m c t) k0_t1_loop.trips (ix2 n d)
      = ∑ q ∈ Finset.range 65536, term (msgA m c) (eiA m c) (2000 * (t.val / 20) + n.val) d (65536 * (t.val % 20) + q) := by
  rw [trips_eq, loopVal_apply (grid0.coords t) (dblk m c t) (mblk m c t) n d 64 le_rfl]
  exact Finset.sum_congr rfl fun q hq => blkTerm_eq m c t n d q (Finset.mem_range.mp hq)

/-- At the first edge block of a tile the block holds that block's contributions. -/
theorem outs_first (c : Dev nD) (n : Fin 2000) (d : Fin 64) (T : Fin cfg0.N) (h0 : T.val % 20 = 0) :
    (outsAt0 m c T.val T.isLt : Vec Ideal S2000x64 .f32) (ix2 n d)
      = partialSum (msgA m c) (eiA m c) (2000 * (T.val / 20) + n.val) d (65536 * (T.val % 20 + 1)) := by
  rw [outsAt0_A m c T h0]
  refine (congrFun (out0_A_2_eq (F := Ideal) c (grid0.coords T) (ms0_0 T) (hs0_0 T) (ms0_1 T) (hs0_1 T) (ms0_2 T) (hs0_2 T) ((hcond0_0 T).mpr h0) (iblk m c 0 T) (iblk m c 1 T)) (ix2 n d)).trans ?_
  rw [pay4_apply, pay1_apply, zero_add]
  refine (loop_at m c T n d).trans ?_
  have hB : 65536 * (T.val % 20) = 0 := by omega
  rw [show 65536 * (T.val % 20 + 1) = 65536 * (T.val % 20) + 65536 from by ring, partialSum_add, hB, partialSum_zero, zero_add]

/-- At a later edge block of a tile the body adds that block's contributions to what the point before left. -/
theorem outs_next (c : Dev nD) (n : Fin 2000) (d : Fin 64) (T : Fin cfg0.N) (h0 : ¬T.val % 20 = 0)
    (hprev : (outsAt0 m c (T.val - 1) (Nat.lt_of_le_of_lt (Nat.sub_le _ _) T.isLt) : Vec Ideal S2000x64 .f32) (ix2 n d)
      = partialSum (msgA m c) (eiA m c) (2000 * ((T.val - 1) / 20) + n.val) d (65536 * ((T.val - 1) % 20 + 1))) :
    (outsAt0 m c T.val T.isLt : Vec Ideal S2000x64 .f32) (ix2 n d)
      = partialSum (msgA m c) (eiA m c) (2000 * (T.val / 20) + n.val) d (65536 * (T.val % 20 + 1)) := by
  rw [outsAt0_B m c T h0]
  refine (congrFun (out0_B_2_eq (F := Ideal) c (grid0.coords T) (ms0_0 T) (hs0_0 T) (ms0_1 T) (hs0_1 T) (ms0_2 T) (hs0_2 T) (fun h => h0 ((hcond0_0 T).mp h)) (iblk m c 0 T) (iblk m c 1 T) (outsAt0 m c (T.val - 1) (Nat.lt_of_le_of_lt (Nat.sub_le _ _) T.isLt))) (ix2 n d)).trans ?_
  rw [pay4_apply, hprev]
  refine (congrArg (fun z : EReal => _ + z) (loop_at m c T n d)).trans ?_
  have e1 : (T.val - 1) / 20 = T.val / 20 := by omega
  have e2 : (T.val - 1) % 20 + 1 = T.val % 20 := by omega
  rw [show 65536 * (T.val % 20 + 1) = 65536 * (T.val % 20) + 65536 from by ring, partialSum_add, e1, e2]

/-- THE INVARIANT: after point `t` the output block holds the first `65536 (t % 20 + 1)` padded edges' contributions
    to its tile's nodes. -/
theorem outs_inv (c : Dev nD) (n : Fin 2000) (d : Fin 64) : ∀ (t : ℕ) (ht : t < cfg0.N),
    (outsAt0 m c t ht : Vec Ideal S2000x64 .f32) (ix2 n d)
      = partialSum (msgA m c) (eiA m c) (2000 * (t / 20) + n.val) d (65536 * (t % 20 + 1)) := by
  intro t
  induction t with
  | zero => intro ht; exact outs_first m c n d ⟨0, ht⟩ rfl
  | succ t ih =>
    intro ht
    by_cases h0 : (t + 1) % 20 = 0
    · exact outs_first m c n d ⟨t + 1, ht⟩ h0
    · exact outs_next m c n d ⟨t + 1, ht⟩ h0 (ih (Nat.lt_of_succ_lt ht))

end Cert.KernelIdeal.SegAcc

end
-- ==== Proof.KFinal.lean ====
/-
  The array the region leaves: each tile's block is written back after the tile's last edge block, when it holds the
  contributions of all the padded edges, and the 25 tiles cover the 50000 nodes.
-/
import proofs.«422264_j51994874085823_1_alg».proof.Proof.KAcc

set_option maxRecDepth 16384

noncomputable section

namespace Cert.KernelIdeal.SegAcc

open Cert.KernelIdeal Cert.KernelIdeal.Gen Cert.KernelIdeal.Value
open Cert.KernelIdeal.SegBody Cert.KernelIdeal.SegIdeal Cert.KernelIdeal.SegBlk Cert.KernelIdeal.SegHost Cert.SegSum
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ)

/-- What a point that writes its block back writes is its block of the segment sum. -/
theorem flushed_eq (c : Dev nD) (t : Fin cfg0.N) (hf : (cfg0.win 2).flush t = true) :
    (dats m 0 c).flushed 2 t = ((cfg0.win 2).blk t).view.read (Elt Ideal) (G (msgA m c) (eiA m c)) := by
  have h19 : t.val % 20 = 19 := (flush0_2 t).mp hf
  have ht : t.val < 500 := lt_of_lt_of_eq t.isLt N_eq
  rw [flushed2]
  funext j
  rw [View.read_apply]
  obtain ⟨n, d, rfl⟩ : ∃ (n : Fin 2000) (d : Fin 64), j = ix2 n d := ⟨j 0, j 1, eq_ix2 j⟩
  have hr : 2000 * (t.val / 20) + n.val < 50000 := by have := n.isLt; omega
  rw [oblk_emb t n d hr]
  refine Eq.trans ?_ ((outs_inv m c n d t.val t.isLt).trans ?_)
  · rfl
  rw [h19, show 65536 * (19 + 1) = 1310720 from by norm_num]
  exact (partialSum_all (msgA m c) (eiA m c) ⟨2000 * (t.val / 20) + n.val, hr⟩ d).trans (cast_eq _ _).symm

/-- An index of the result array is in point `t`'s block iff each coordinate is in the block's range on its axis. -/
theorem mem_blk (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v6).slice (win0_2.rect t)).set ↔ _
  rw [View.set_slice_whole, Rect.mem_set_unit]
  exact Iff.rfl

/-- THE RESULT ARRAY after the region: the segment sum of the two arguments.  Node `r` lies in tile `r / 2000`,
    whose block is written back at the tile's last edge block, point `20 (r / 2000) + 19`. -/
theorem final (c : Dev nD) : (dats m 0 c).arrAt 2 cfg0.N = G (msgA m c) (eiA m c) :=
  (dats m 0 c).arrAt_eq_of_cover 2 (G (msgA m c) (eiA m c)) (fun t hf => flushed_eq m c t hf) (fun i => by
    have hi0 : (i 0).val < 50000 := (i 0).isLt
    have hi1 : (i 1).val < 64 := (i 1).isLt
    have hT : 20 * ((i 0).val / 2000) + 19 < cfg0.N := by rw [N_eq]; omega
    refine ⟨⟨20 * ((i 0).val / 2000) + 19, hT⟩, (flush0_2 _).mpr (by show (20 * ((i 0).val / 2000) + 19) % 20 = 19; omega), ?_⟩
    rw [mem_blk]
    obtain ⟨e0, e1⟩ := idx2 ⟨20 * ((i 0).val / 2000) + 19, hT⟩
    have e0' : win0_2.index ⟨20 * ((i 0).val / 2000) + 19, hT⟩ (0 : Fin 2) = (i 0).val / 2000 := by
      rw [e0]; show (20 * ((i 0).val / 2000) + 19) / 20 = _; omega
    intro a
    match a with
    | ⟨0, _⟩ => show win0_2.index _ (0 : Fin 2) * 2000 ≤ (i 0).val ∧ (i 0).val < win0_2.index _ (0 : Fin 2) * 2000 + 2000; omega
    | ⟨1, _⟩ => show win0_2.index _ (1 : Fin 2) * 64 ≤ (i 1).val ∧ (i 1).val < win0_2.index _ (1 : Fin 2) * 64 + 64; omega)

/-- The idealized kernel's run: every weakly fair execution ends with the result array at the segment sum of the
    arguments and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v6) = G (msgA m c) (eiA m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.SegAcc

end
-- ==== Proof.RefSide.lean ====
/-
  The reference's scatter-add is the segment sum: an update element `(e, d')` lands on operand element `(r, d)` exactly
  when edge `e`'s destination word, read signed, is `r` and `d' = d`; so the sum over the update elements landing
  on `(r, d)` is the sum over the edges whose destination word is the word of `r`.
-/
import proofs.«422264_j51994874085823_1_alg».proof.Proof.Spec
import proofs.«422264_j51994874085823_1_alg».proof.Proof.Gen.ReferenceIdeal.Read
import Idealize.ShloMosaic.Lib.ValueIdx
import Idealize.ShloMosaic.Lib.Pipeline.Value
import Idealize.ShloMosaic.PureOps.Ideal
import Idealize.ShloMosaic.PureOps.Ideal.Laws

noncomputable section

namespace Cert.ReferenceIdeal.SegRef

open Cert.ReferenceIdeal Cert.ReferenceIdeal.Gen Cert.ReferenceIdeal.Read Cert.SegSum
open Idealize.ShloMosaic Idealize.ShloMosaic.ValueIdx
open scoped BigOperators

/-- The scatter's dimension numbers: the update's axis 1 is the window axis, the operand's axis 0 is inserted and is the
    axis the one-component start index names. -/
abbrev D := scatter_S50000x64_S1250000x1_S1250000x64_1_0_0_1

/-! ## The result index of one update element -/

/-- Update element `(e, d')` reads its start index at row `e` of the index table. -/
theorem siIdx_eq (e : Fin 1250000) (d' : Fin 64) (c : Fin D.scatterDimsToOperandDims.length) :
    D.siIdx (ix2 e d') c = ix2 e (0 : Fin 1) := by
  funext b
  match b with
  | ⟨0, _⟩ => rfl
  | ⟨1, _⟩ => exact Fin.ext (by have h : c.val < 1 := c.isLt; show c.val = 0; omega)

/-- The node axis is inserted: no window coordinate on it. -/
theorem window0 (e : Fin 1250000) (d' : Fin 64) : D.window (ix2 e d') (0 : Fin 2) = 0 := rfl

/-- The feature axis is the window axis: the window coordinate is the update's feature. -/
theorem window1 (e : Fin 1250000) (d' : Fin 64) : D.window (ix2 e d') (1 : Fin 2) = d'.val := rfl

/-- On the node axis the window starts at edge `e`'s index word, read signed. -/
theorem start0 (idx : IVec S1250000x1 32) (e : Fin 1250000) (d' : Fin 64) :
    D.start (ix2 e d') idx (0 : Fin 2) = (idx (ix2 e (0 : Fin 1))).toInt := by
  unfold ScatterDims.start
  rw [dif_pos (by decide)]
  rw [siIdx_eq]

/-- On the feature axis the window starts at 0. -/
theorem start1 (idx : IVec S1250000x1 32) (e : Fin 1250000) (d' : Fin 64) :
    D.start (ix2 e d') idx (1 : Fin 2) = 0 := by
  unfold ScatterDims.start
  rw [dif_neg (by decide)]

/-- A 32-bit word read signed is the natural number `r < 50000` exactly when it is the word of `r`. -/
theorem toInt_eq_iff (x : BitVec 32) (r : Nat) (hr : r < 50000) : x.toInt = (r : Int) ↔ x = BitVec.ofNat 32 r := by
  constructor
  · intro h
    apply BitVec.eq_of_toNat_eq
    rw [BitVec.toNat_ofNat]
    rw [BitVec.toInt_eq_toNat_cond] at h
    have := x.isLt
    split at h <;> omega
  · rintro rfl
    rw [BitVec.toInt_eq_toNat_cond, BitVec.toNat_ofNat]
    split <;> omega

/-- When edge `e`'s index word, read signed, is a node, update element `(e, d')` lands inside the operand. -/
theorem resultIdx_inside (idx : IVec S1250000x1 32) (e : Fin 1250000) (d' : Fin 64) (r : Fin 50000)
    (ht : (idx (ix2 e (0 : Fin 1))).toInt = (r.val : Int)) :
    ∀ a, 0 ≤ D.start (ix2 e d') idx a + D.window (ix2 e d') a ∧
      D.start (ix2 e d') idx a + D.window (ix2 e d') a < S50000x64.size a := by
  intro a
  match a with
  | ⟨0, _⟩ =>
    show 0 ≤ D.start (ix2 e d') idx 0 + ↑(D.window (ix2 e d') 0) ∧
      D.start (ix2 e d') idx 0 + ↑(D.window (ix2 e d') 0) < ((50000 : Nat) : Int)
    rw [start0, window0]; have := r.isLt; omega
  | ⟨1, _⟩ =>
    show 0 ≤ D.start (ix2 e d') idx 1 + ↑(D.window (ix2 e d') 1) ∧
      D.start (ix2 e d') idx 1 + ↑(D.window (ix2 e d') 1) < ((64 : Nat) : Int)
    rw [start1, window1]; have := d'.isLt; omega

/-- Update element `(e, d')` lands on operand element `(r, d)` exactly when edge `e`'s index word, read signed, is `r`
    and `d' = d`. -/
theorem resultIdx_iff (idx : IVec S1250000x1 32) (e : Fin 1250000) (d' : Fin 64) (r : Fin 50000) (d : Fin 64) :
    D.resultIdx? (ix2 e d') idx = some (ix2 r d) ↔ (idx (ix2 e (0 : Fin 1))).toInt = (r.val : Int) ∧ d' = d := by
  unfold ScatterDims.resultIdx?
  split
  · rename_i h
    rw [Option.some_inj]
    constructor
    · intro hf
      have h0 : (D.start (ix2 e d') idx 0 + ↑(D.window (ix2 e d') 0)).toNat = r.val :=
        congrArg Fin.val (congrFun hf (0 : Fin 2))
      have h1 : (D.start (ix2 e d') idx 1 + ↑(D.window (ix2 e d') 1)).toNat = d.val :=
        congrArg Fin.val (congrFun hf (1 : Fin 2))
      have hh := (h 0).1
      rw [start0, window0] at h0 hh
      rw [start1, window1] at h1
      exact ⟨by omega, Fin.ext (by omega)⟩
    · rintro ⟨ht, rfl⟩
      funext a
      match a with
      | ⟨0, _⟩ =>
        refine Fin.ext ?_
        show (D.start (ix2 e d') idx 0 + ↑(D.window (ix2 e d') 0)).toNat = r.val
        rw [start0, window0]; omega
      | ⟨1, _⟩ =>
        refine Fin.ext ?_
        show (D.start (ix2 e d') idx 1 + ↑(D.window (ix2 e d') 1)).toNat = d'.val
        rw [start1, window1]; omega
  · rename_i h
    constructor
    · intro hf; exact absurd hf.symm (Option.some_ne_none _)
    · rintro ⟨ht, rfl⟩
      exact absurd (resultIdx_inside idx e d' r ht) h

/-! ## The three operands -/

/-- The index table's row `e` is the second row of the edge table at `e`: the slice, the reshape and the broadcast only
    rename the position. -/
theorem idx_read (x1 : SEi.Idx → BitVec 32) (e : Fin 1250000) :
    val_main_v3 (F := Ideal) x1 (ix2 e (0 : Fin 1)) = x1 (ix2 (1 : Fin 2) e) := by
  rw [val_main_v3_apply, val_main_v1_apply, val_main_v0_apply]
  refine congrArg x1 (funext fun a => ?_)
  match a with
  | ⟨0, _⟩ => exact Fin.ext (by show 1 + 0 = 1; rfl)
  | ⟨1, _⟩ => exact Fin.ext (by show e.val % 1250000 = e.val; exact Nat.mod_eq_of_lt e.isLt)

/-- The operand is zero everywhere. -/
theorem v2_zero (i : S50000x64.Idx) : val_main_v2 (F := Ideal) i = 0 := by
  rw [val_main_v2_apply, val_main_cst_apply]
  exact Ideal.ofBits_zero_f32

/-- At the extended reals the accumulating scatter is, at each element, the operand's element plus the sum of the update
    elements landing on it (stated over arbitrary shapes). -/
theorem scatterAdd_ideal {s si u : Shape} {φ : FTy} {w : Nat} (d : ScatterDims s si u) (x : FVec Ideal s φ)
    (idx : IVec si w) (upd : FVec Ideal u φ) (i : s.Idx) :
    Host.scatterAdd d x idx upd i = x i + ∑ j ∈ Finset.univ.filter (fun j => d.resultIdx? j idx = some i), upd j := rfl

/-- The reference's result at an element, by the same. -/
theorem v4_apply (x0 : SMsg.Idx → EReal) (x1 : SEi.Idx → BitVec 32) (i : S50000x64.Idx) :
    val_main_v4 (F := Ideal) x0 x1 i
      = val_main_v2 (F := Ideal) i
        + ∑ j ∈ Finset.univ.filter (fun j => D.resultIdx? j (val_main_v3 (F := Ideal) x1) = some i), x0 j :=
  scatterAdd_ideal D (val_main_v2 (F := Ideal)) (val_main_v3 (F := Ideal) x1) x0 i

/-! ## The sum -/

/-- The segment sum at node `r`, feature `d`. -/
theorem G_apply (x0 : SMsg.Idx → EReal) (x1 : SEi.Idx → BitVec 32) (r : Fin 50000) (d : Fin 64) :
    G x0 x1 (ix2 r d) = ∑ e : Fin 1250000, if x1 (ix2 (1 : Fin 2) e) = nodeWord r.val then x0 (ix2 e d) else 0 := rfl

/-- Update element `(e, b)`'s contribution to `(r, d)`: nothing unless `b = d`, and then edge `e`'s message at `d` when
    its destination word is the word of `r`. -/
theorem inner_term (x0 : SMsg.Idx → EReal) (x1 : SEi.Idx → BitVec 32) (r : Fin 50000) (d : Fin 64)
    (e : Fin 1250000) (b : Fin 64) :
    (if D.resultIdx? (ix2 e b) (val_main_v3 (F := Ideal) x1) = some (ix2 r d) then x0 (ix2 e b) else 0)
      = if b = d then (if x1 (ix2 (1 : Fin 2) e) = nodeWord r.val then x0 (ix2 e d) else 0) else 0 := by
  by_cases hb : b = d
  · subst hb
    rw [if_pos rfl]
    refine if_congr ?_ rfl rfl
    rw [resultIdx_iff, idx_read, toInt_eq_iff _ _ r.isLt]
    exact and_iff_left rfl
  · rw [if_neg hb, if_neg]
    rw [resultIdx_iff]; exact fun h => hb h.2

/-- The reference's result stage, at the ideal instance, is the segment sum of its two arguments. -/
theorem ref_eq (x0 : SMsg.Idx → EReal) (x1 : SEi.Idx → BitVec 32) :
    val_main_v4 (F := Ideal) x0 x1 = G x0 x1 := by
  funext i
  obtain ⟨r, d, rfl⟩ : ∃ (r : Fin 50000) (d : Fin 64), i = ix2 r d := ⟨i 0, i 1, eq_ix2 i⟩
  -- the zero operand drops; the sum over the update elements is a double sum over edges and features
  rw [v4_apply, v2_zero, zero_add, Finset.sum_filter, sum_idx2, G_apply]
  refine Finset.sum_congr rfl fun e _ => ?_
  -- for each edge, only the feature `d` contributes
  rw [Finset.sum_congr rfl (fun b _ => inner_term x0 x1 r d e b), Finset.sum_ite_eq' Finset.univ d,
    if_pos (Finset.mem_univ d)]

end Cert.ReferenceIdeal.SegRef

end
-- ==== Proof.lean ====
/-
  Segment sum by one-hot products against a scatter-add: the certificate's claims.

  The kernel pads the 1250000 edges to 1310720 = 20 · 65536 (destination word −1, message 0), and for each of the 25
  tiles of 2000 nodes walks the 20 edge blocks; in a block it adds, 1024 edges at a time, the product of the one-hot
  matrix `[node = destination]` with the messages to an accumulator, and adds the accumulator into the output block,
  which it zeroed at the tile's first edge block.  The reference scatters every message row onto its destination row
  and adds, dropping the rows whose destination is outside `0 … 49999`.

  On the extended reals both are, at node `r` and feature `d`, the sum of `msg e d` over the edges `e` whose destination
  word is the word of `r` (`Cert.SegSum.G`): a one-hot factor is 1 or 0 and `1 · x = x`, `0 · x = 0` for every extended
  real `x`; sums may be regrouped and reordered freely (addition on the extended reals is associative and commutative); a
  destination word that is no node's word (the padding's −1 among them) matches no row on the kernel's side and is
  dropped on the reference's.  No finiteness of the messages is needed, and the precondition is not opened.

  The three frames are the generated ones (the reference's is its generated run with the result dropped); the
  idealization rewrote nothing, so `preserves` is `True`.
-/
import proofs.«422264_j51994874085823_1_alg».proof.Defs
import proofs.«422264_j51994874085823_1_alg».proof.Proof.Gen.Kernel
import proofs.«422264_j51994874085823_1_alg».proof.Proof.Gen.Kernel.Frame
import proofs.«422264_j51994874085823_1_alg».proof.Proof.Gen.KernelIdeal
import proofs.«422264_j51994874085823_1_alg».proof.Proof.Gen.KernelIdeal.Frame
import proofs.«422264_j51994874085823_1_alg».proof.Proof.Gen.KernelIdeal.Value
import proofs.«422264_j51994874085823_1_alg».proof.Proof.Gen.ReferenceIdeal
import proofs.«422264_j51994874085823_1_alg».proof.Proof.Gen.ReferenceIdeal.Run
import proofs.«422264_j51994874085823_1_alg».proof.Proof.Gen.ReferenceIdeal.Read
import proofs.«422264_j51994874085823_1_alg».proof.Proof.Gen.Pre_finite_inputs
import proofs.«422264_j51994874085823_1_alg».proof.Proof.Spec
import proofs.«422264_j51994874085823_1_alg».proof.Proof.KAcc
import proofs.«422264_j51994874085823_1_alg».proof.Proof.KFinal
import proofs.«422264_j51994874085823_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the two arguments, both idealized programs end with the result array at the
    segment sum of the arguments: the kernel by the accumulation over its grid, the reference by reading its
    scatter-add as that sum. -/
theorem algebraic : Cert.algebraic_KernelIdeal_ReferenceIdeal := by
  intro m ρ m' ρ' _ hagree
  refine ⟨fun c => Cert.SegSum.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.SegAcc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, (hagree c).1, (hagree c).2]
  exact Cert.ReferenceIdeal.SegRef.ref_eq _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
